-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304 : Shape := ⟨1, ![4194304]⟩
abbrev S4194304x21 : Shape := ⟨2, ![4194304, 21]⟩
abbrev S_ : Shape := ⟨0, ![]⟩

class Facts : Prop where
  bcast_S_S4194304 : S_.BroadcastsInDim S4194304 (![] : Fin 0 → Fin S4194304.rank)
  reducesTo_S4194304_S_d0 : S4194304.ReducesTo [0] S_
  h_S_ : 0 < S_.numel
  bcast_S_S4194304x21 : S_.BroadcastsInDim S4194304x21 (![] : Fin 0 → Fin S4194304x21.rank)
  reducesTo_S4194304x21_S_d0_1 : S4194304x21.ReducesTo [0, 1] S_

variable [Facts]

def fn {F : FTy → Type} [FloatOps F] (main_arg0 : FVec F S4194304 .f32) (main_arg1 : FVec F S4194304x21 .f32) : IVec S_ 1 :=
  let main_v0 : FVec F S4194304 .f32 := Host.absf main_arg0
  let main_cst : FVec F S_ .f32 := constant S_ .f32 0x7F800000#32
  let main_v1 : FVec F S4194304 .f32 := broadcastInDim S4194304 ![] bcast_S_S4194304 main_cst
  let main_v2 : IVec S4194304 1 := cmpf .olt main_v0 main_v1
  let main_c : IVec S_ 1 := constantI S_ 1 1#1
  let main_v3 : IVec S_ 1 := (fun x v => Host.reduce IntOp.andi x v reducesTo_S4194304_S_d0 h_S_) main_v2 main_c
  let main_v4 : FVec F S4194304x21 .f32 := Host.absf main_arg1
  let main_cst_0 : FVec F S_ .f32 := constant S_ .f32 0x7F800000#32
  let main_v5 : FVec F S4194304x21 .f32 := broadcastInDim S4194304x21 ![] bcast_S_S4194304x21 main_cst_0
  let main_v6 : IVec S4194304x21 1 := cmpf .olt main_v4 main_v5
  let main_c_1 : IVec S_ 1 := constantI S_ 1 1#1
  let main_v7 : IVec S_ 1 := (fun x v => Host.reduce IntOp.andi x v reducesTo_S4194304x21_S_d0_1 h_S_) main_v6 main_c_1
  let main_v8 : IVec S_ 1 := andi main_v3 main_v7
  main_v8
-- ==== Kernel.lean ====
abbrev S4194304 : Shape := ⟨1, ![4194304]⟩
abbrev S4194304x21 : Shape := ⟨2, ![4194304, 21]⟩
abbrev S4194304x1 : Shape := ⟨2, ![4194304, 1]⟩
abbrev S4096x1 : Shape := ⟨2, ![4096, 1]⟩
abbrev S4096x21 : Shape := ⟨2, ![4096, 21]⟩

abbrev nBuf : Space → Nat
  | .hbm => 7
  | .vmem => 8
  | .smem => 0
  | _ => 0

abbrev bufTy : (tb : Table) → Fin (tcTables nBuf tb) → BufTy
  | .hbm, ⟨0, _⟩ => ⟨S4194304, .f32⟩
  | .hbm, ⟨1, _⟩ => ⟨S4194304x21, .f32⟩
  | .hbm, ⟨2, _⟩ => ⟨S4194304x1, .f32⟩
  | .hbm, ⟨3, _⟩ => ⟨S4194304x1, .f32⟩
  | .hbm, ⟨4, _⟩ => ⟨S4194304x1, .f32⟩
  | .hbm, ⟨5, _⟩ => ⟨S4194304, .f32⟩
  | .hbm, ⟨6, _⟩ => ⟨S4194304, .f32⟩
  | .local _ .vmem, ⟨0, _⟩ => ⟨S4096x1, .f32⟩
  | .local _ .vmem, ⟨1, _⟩ => ⟨S4096x1, .f32⟩
  | .local _ .vmem, ⟨2, _⟩ => ⟨S4096x21, .f32⟩
  | .local _ .vmem, ⟨3, _⟩ => ⟨S4096x21, .f32⟩
  | .local _ .vmem, ⟨4, _⟩ => ⟨S4096x1, .f32⟩
  | .local _ .vmem, ⟨5, _⟩ => ⟨S4096x1, .f32⟩
  | .local _ .vmem, ⟨6, _⟩ => ⟨S4096x1, .f32⟩
  | .local _ .vmem, ⟨7, _⟩ => ⟨S4096x1, .f32⟩
  | _, _ => ⟨S4194304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x21 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4194304_S4194304x1 : S4194304.ShapeCasts S4194304x1
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S4096x21_S4096x1_0_1 : ∀ a, (![0, 1] : Fin 2 → Nat) a + S4096x1.size a ≤ S4096x21.size a
  inb_S4096x21_S4096x1_0_2 : ∀ a, (![0, 2] : Fin 2 → Nat) a + S4096x1.size a ≤ S4096x21.size a
  inb_S4096x21_S4096x1_0_4 : ∀ a, (![0, 4] : Fin 2 → Nat) a + S4096x1.size a ≤ S4096x21.size a
  inb_S4096x21_S4096x1_0_5 : ∀ a, (![0, 5] : Fin 2 → Nat) a + S4096x1.size a ≤ S4096x21.size a
  inb_S4096x21_S4096x1_0_7 : ∀ a, (![0, 7] : Fin 2 → Nat) a + S4096x1.size a ≤ S4096x21.size a
  inb_S4096x21_S4096x1_0_8 : ∀ a, (![0, 8] : Fin 2 → Nat) a + S4096x1.size a ≤ S4096x21.size a
  inb_S4096x21_S4096x1_0_9 : ∀ a, (![0, 9] : Fin 2 → Nat) a + S4096x1.size a ≤ S4096x21.size a
  inb_S4096x21_S4096x1_0_10 : ∀ a, (![0, 10] : Fin 2 → Nat) a + S4096x1.size a ≤ S4096x21.size a
  inb_S4096x21_S4096x1_0_11 : ∀ a, (![0, 11] : Fin 2 → Nat) a + S4096x1.size a ≤ S4096x21.size a
  inb_S4096x21_S4096x1_0_12 : ∀ a, (![0, 12] : Fin 2 → Nat) a + S4096x1.size a ≤ S4096x21.size a
  inb_S4096x21_S4096x1_0_13 : ∀ a, (![0, 13] : Fin 2 → Nat) a + S4096x1.size a ≤ S4096x21.size a
  inb_S4096x21_S4096x1_0_14 : ∀ a, (![0, 14] : Fin 2 → Nat) a + S4096x1.size a ≤ S4096x21.size a
  inb_S4096x21_S4096x1_0_15 : ∀ a, (![0, 15] : Fin 2 → Nat) a + S4096x1.size a ≤ S4096x21.size a
  inb_S4096x21_S4096x1_0_16 : ∀ a, (![0, 16] : Fin 2 → Nat) a + S4096x1.size a ≤ S4096x21.size a
  inb_S4096x21_S4096x1_0_17 : ∀ a, (![0, 17] : Fin 2 → Nat) a + S4096x1.size a ≤ S4096x21.size a
  inb_S4096x21_S4096x1_0_18 : ∀ a, (![0, 18] : Fin 2 → Nat) a + S4096x1.size a ≤ S4096x21.size a
  inb_S4096x21_S4096x1_0_19 : ∀ a, (![0, 19] : Fin 2 → Nat) a + S4096x1.size a ≤ S4096x21.size a
  inb_S4096x21_S4096x1_0_20 : ∀ a, (![0, 20] : Fin 2 → Nat) a + S4096x1.size a ≤ S4096x21.size a
  shapeCasts_S4194304x1_S4194304 : S4194304x1.ShapeCasts S4194304
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x1.size a ≤ S4194304x1.size a
  hwx0_0 : ∀ i : grid0.Coords, EltTy.bits .f32 = 32 ∨ (Rect.block (s := S4194304x1) S4096x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x21.size a ≤ S4194304x21.size a
  hwx0_1 : ∀ i : grid0.Coords, EltTy.bits .f32 = 32 ∨ (Rect.block (s := S4194304x21) S4096x21.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x1.size a ≤ S4194304x1.size a
  hwx0_2 : ∀ i : grid0.Coords, EltTy.bits .f32 = 32 ∨ (Rect.block (s := S4194304x1) S4096x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x1.size a ≤ S4194304x1.size a
  hwx0_3 : ∀ i : grid0.Coords, EltTy.bits .f32 = 32 ∨ (Rect.block (s := S4194304x1) S4096x1.size (cc0_transform_3 i) (hinb0_3 i)).WholeWords (EltTy.packing .f32)

variable [Facts₀]

abbrev win0_0 : Pipeline.Window sig grid0 :=
  Pipeline.Window.ofSpec (Memref.whole main_v0) S4096x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x21.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S4096x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S4096x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4194304 : Shape := ⟨1, ![4194304]⟩
abbrev S4194304x21 : Shape := ⟨2, ![4194304, 21]⟩
abbrev S4194304x1 : Shape := ⟨2, ![4194304, 1]⟩
abbrev S4194304x9 : Shape := ⟨2, ![4194304, 9]⟩
abbrev S4194304x3x3 : Shape := ⟨3, ![4194304, 3, 3]⟩
abbrev S4194304x3x1 : Shape := ⟨3, ![4194304, 3, 1]⟩
abbrev S4194304x3 : Shape := ⟨2, ![4194304, 3]⟩
abbrev S_ : Shape := ⟨0, ![]⟩
abbrev S4194304x12 : Shape := ⟨2, ![4194304, 12]⟩
abbrev S4194304x4x3 : Shape := ⟨3, ![4194304, 4, 3]⟩
abbrev S4194304x4x1 : Shape := ⟨3, ![4194304, 4, 1]⟩
abbrev S4194304x4 : Shape := ⟨2, ![4194304, 4]⟩

abbrev nBuf : Space → Nat
  | .hbm => 89
  | .vmem => 0
  | .smem => 0
  | _ => 0

abbrev bufTy : (tb : Table) → Fin (tcTables nBuf tb) → BufTy
  | .hbm, ⟨0, _⟩ => ⟨S4194304, .f32⟩
  | .hbm, ⟨1, _⟩ => ⟨S4194304x21, .f32⟩
  | .hbm, ⟨2, _⟩ => ⟨S4194304x1, .f32⟩
  | .hbm, ⟨3, _⟩ => ⟨S4194304x9, .f32⟩
  | .hbm, ⟨4, _⟩ => ⟨S4194304x3x3, .f32⟩
  | .hbm, ⟨5, _⟩ => ⟨S4194304x3x1, .f32⟩
  | .hbm, ⟨6, _⟩ => ⟨S4194304x3, .f32⟩
  | .hbm, ⟨7, _⟩ => ⟨S4194304x3x1, .f32⟩
  | .hbm, ⟨8, _⟩ => ⟨S4194304x3, .f32⟩
  | .hbm, ⟨9, _⟩ => ⟨S4194304x3, .f32⟩
  | .hbm, ⟨10, _⟩ => ⟨S4194304x3, .f32⟩
  | .hbm, ⟨11, _⟩ => ⟨S4194304x3, .f32⟩
  | .hbm, ⟨12, _⟩ => ⟨S4194304x3, .f32⟩
  | .hbm, ⟨13, _⟩ => ⟨S4194304x3, .f32⟩
  | .hbm, ⟨14, _⟩ => ⟨S4194304x3, .f32⟩
  | .hbm, ⟨15, _⟩ => ⟨S_, .f32⟩
  | .hbm, ⟨16, _⟩ => ⟨S4194304x3, .f32⟩
  | .hbm, ⟨17, _⟩ => ⟨S4194304x3, .f32⟩
  | .hbm, ⟨18, _⟩ => ⟨S4194304x3, .f32⟩
  | .hbm, ⟨19, _⟩ => ⟨S4194304x3, .f32⟩
  | .hbm, ⟨20, _⟩ => ⟨S_, .f32⟩
  | .hbm, ⟨21, _⟩ => ⟨S4194304x3, .f32⟩
  | .hbm, ⟨22, _⟩ => ⟨S4194304x3, .f32⟩
  | .hbm, ⟨23, _⟩ => ⟨S4194304x3, .f32⟩
  | .hbm, ⟨24, _⟩ => ⟨S4194304x3, .f32⟩
  | .hbm, ⟨25, _⟩ => ⟨S4194304x3, .f32⟩
  | .hbm, ⟨26, _⟩ => ⟨S_, .f32⟩
  | .hbm, ⟨27, _⟩ => ⟨S4194304x3, .f32⟩
  | .hbm, ⟨28, _⟩ => ⟨S4194304x3, .f32⟩
  | .hbm, ⟨29, _⟩ => ⟨S4194304x1, .f32⟩
  | .hbm, ⟨30, _⟩ => ⟨S4194304x1, .f32⟩
  | .hbm, ⟨31, _⟩ => ⟨S4194304x1, .f32⟩
  | .hbm, ⟨32, _⟩ => ⟨S4194304x1, .f32⟩
  | .hbm, ⟨33, _⟩ => ⟨S4194304x3, .f32⟩
  | .hbm, ⟨34, _⟩ => ⟨S4194304x3, .f32⟩
  | .hbm, ⟨35, _⟩ => ⟨S4194304x3, .f32⟩
  | .hbm, ⟨36, _⟩ => ⟨S4194304x3, .f32⟩
  | .hbm, ⟨37, _⟩ => ⟨S4194304x3, .f32⟩
  | .hbm, ⟨38, _⟩ => ⟨S4194304x3, .f32⟩
  | .hbm, ⟨39, _⟩ => ⟨S_, .f32⟩
  | .hbm, ⟨40, _⟩ => ⟨S4194304x3, .f32⟩
  | .hbm, ⟨41, _⟩ => ⟨S4194304x3, .f32⟩
  | .hbm, ⟨42, _⟩ => ⟨S4194304x1, .f32⟩
  | .hbm, ⟨43, _⟩ => ⟨S4194304x1, .f32⟩
  | .hbm, ⟨44, _⟩ => ⟨S4194304x1, .f32⟩
  | .hbm, ⟨45, _⟩ => ⟨S4194304x1, .f32⟩
  | .hbm, ⟨46, _⟩ => ⟨S4194304x1, .f32⟩
  | .hbm, ⟨47, _⟩ => ⟨S4194304x3, .f32⟩
  | .hbm, ⟨48, _⟩ => ⟨S4194304x3, .f32⟩
  | .hbm, ⟨49, _⟩ => ⟨S4194304x3, .f32⟩
  | .hbm, ⟨50, _⟩ => ⟨S4194304x3, .f32⟩
  | .hbm, ⟨51, _⟩ => ⟨S4194304x12, .f32⟩
  | .hbm, ⟨52, _⟩ => ⟨S4194304x4x3, .f32⟩
  | .hbm, ⟨53, _⟩ => ⟨S4194304x4x1, .f32⟩
  | .hbm, ⟨54, _⟩ => ⟨S4194304x4, .f32⟩
  | .hbm, ⟨55, _⟩ => ⟨S4194304x4x1, .f32⟩
  | .hbm, ⟨56, _⟩ => ⟨S4194304x4, .f32⟩
  | .hbm, ⟨57, _⟩ => ⟨S4194304x4x1, .f32⟩
  | .hbm, ⟨58, _⟩ => ⟨S4194304x4, .f32⟩
  | .hbm, ⟨59, _⟩ => ⟨S4194304x4, .f32⟩
  | .hbm, ⟨60, _⟩ => ⟨S4194304x4, .f32⟩
  | .hbm, ⟨61, _⟩ => ⟨S4194304x4, .f32⟩
  | .hbm, ⟨62, _⟩ => ⟨S4194304x4, .f32⟩
  | .hbm, ⟨63, _⟩ => ⟨S4194304x4, .f32⟩
  | .hbm, ⟨64, _⟩ => ⟨S_, .f32⟩
  | .hbm, ⟨65, _⟩ => ⟨S4194304x4, .f32⟩
  | .hbm, ⟨66, _⟩ => ⟨S4194304x4, .f32⟩
  | .hbm, ⟨67, _⟩ => ⟨S4194304x4, .f32⟩
  | .hbm, ⟨68, _⟩ => ⟨S4194304x4, .f32⟩
  | .hbm, ⟨69, _⟩ => ⟨S4194304x4, .f32⟩
  | .hbm, ⟨70, _⟩ => ⟨S4194304x4, .f32⟩
  | .hbm, ⟨71, _⟩ => ⟨S4194304x4, .f32⟩
  | .hbm, ⟨72, _⟩ => ⟨S4194304x4, .f32⟩
  | .hbm, ⟨73, _⟩ => ⟨S4194304x4, .f32⟩
  | .hbm, ⟨74, _⟩ => ⟨S4194304x4, .f32⟩
  | .hbm, ⟨75, _⟩ => ⟨S4194304x4, .f32⟩
  | .hbm, ⟨76, _⟩ => ⟨S4194304x4, .f32⟩
  | .hbm, ⟨77, _⟩ => ⟨S4194304x4, .f32⟩
  | .hbm, ⟨78, _⟩ => ⟨S4194304x4, .f32⟩
  | .hbm, ⟨79, _⟩ => ⟨S_, .f32⟩
  | .hbm, ⟨80, _⟩ => ⟨S4194304, .f32⟩
  | .hbm, ⟨81, _⟩ => ⟨S_, .f32⟩
  | .hbm, ⟨82, _⟩ => ⟨S4194304, .f32⟩
  | .hbm, ⟨83, _⟩ => ⟨S4194304, .f32⟩
  | .hbm, ⟨84, _⟩ => ⟨S_, .f32⟩
  | .hbm, ⟨85, _⟩ => ⟨S4194304, .f32⟩
  | .hbm, ⟨86, _⟩ => ⟨S_, .f32⟩
  | .hbm, ⟨87, _⟩ => ⟨S4194304, .f32⟩
  | .hbm, ⟨88, _⟩ => ⟨S4194304, .f32⟩
  | _, _ => ⟨S4194304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst_0 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst_1 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_cst_2 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_cst_3 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_cst_4 : Ref sig .tc := ⟨.hbm, 79, rfl⟩
abbrev main_v72 : Ref sig .tc := ⟨.hbm, 80, rfl⟩
abbrev main_cst_5 : Ref sig .tc := ⟨.hbm, 81, rfl⟩
abbrev main_v73 : Ref sig .tc := ⟨.hbm, 82, rfl⟩
abbrev main_v74 : Ref sig .tc := ⟨.hbm, 83, rfl⟩
abbrev main_cst_6 : Ref sig .tc := ⟨.hbm, 84, rfl⟩
abbrev main_v75 : Ref sig .tc := ⟨.hbm, 85, rfl⟩
abbrev main_cst_7 : Ref sig .tc := ⟨.hbm, 86, rfl⟩
abbrev main_v76 : Ref sig .tc := ⟨.hbm, 87, rfl⟩
abbrev main_v77 : Ref sig .tc := ⟨.hbm, 88, rfl⟩

abbrev nD : Nat := 1
abbrev τ : Topo := Topo.v7x

variable {F : FTy → Type} [FloatOps F]

class Facts₀ : Prop where
  bcast_S4194304_S4194304x1_0 : S4194304.BroadcastsInDim S4194304x1 (![0] : Fin 1 → Fin S4194304x1.rank)
  slices_S4194304x21_S4194304x9_0_0 : S4194304x21.Slices ![0, 0] S4194304x9
  shapeCasts_S4194304x9_S4194304x3x3 : S4194304x9.ShapeCasts S4194304x3x3
  slices_S4194304x3x3_S4194304x3x1_0_0_1 : S4194304x3x3.Slices ![0, 0, 1] S4194304x3x1
  shapeCasts_S4194304x3x1_S4194304x3 : S4194304x3x1.ShapeCasts S4194304x3
  slices_S4194304x3x3_S4194304x3x1_0_0_2 : S4194304x3x3.Slices ![0, 0, 2] S4194304x3x1
  bcast_S4194304x1_S4194304x3_0_1 : S4194304x1.BroadcastsInDim S4194304x3 (![0, 1] : Fin 2 → Fin S4194304x3.rank)
  bcast_S_S4194304x3 : S_.BroadcastsInDim S4194304x3 (![] : Fin 0 → Fin S4194304x3.rank)
  slices_S4194304x21_S4194304x12_0_9 : S4194304x21.Slices ![0, 9] S4194304x12
  shapeCasts_S4194304x12_S4194304x4x3 : S4194304x12.ShapeCasts S4194304x4x3
  slices_S4194304x4x3_S4194304x4x1_0_0_0 : S4194304x4x3.Slices ![0, 0, 0] S4194304x4x1
  shapeCasts_S4194304x4x1_S4194304x4 : S4194304x4x1.ShapeCasts S4194304x4
  slices_S4194304x4x3_S4194304x4x1_0_0_1 : S4194304x4x3.Slices ![0, 0, 1] S4194304x4x1
  slices_S4194304x4x3_S4194304x4x1_0_0_2 : S4194304x4x3.Slices ![0, 0, 2] S4194304x4x1
  bcast_S4194304x1_S4194304x4_0_1 : S4194304x1.BroadcastsInDim S4194304x4 (![0, 1] : Fin 2 → Fin S4194304x4.rank)
  bcast_S_S4194304x4 : S_.BroadcastsInDim S4194304x4 (![] : Fin 0 → Fin S4194304x4.rank)
  reducesTo_S4194304x3_S4194304_d1 : S4194304x3.ReducesTo [1] S4194304
  h_S_ : 0 < S_.numel
  reducesTo_S4194304x4_S4194304_d1 : S4194304x4.ReducesTo [1] S4194304

variable [Facts₀]

class Facts : Prop extends Facts₀ where

variable [Facts]
-- ==== Proof.Spec.lean ====
/-
  The mathematics of the pair potential, one sample at a time, on the extended reals.

  For a distance `d` and the 21 parameters `P 0 … P 20` of one sample the program returns an energy and a force:
  three Lennard-Jones terms over the triplets `(P 3j, P (3j+1), P (3j+2)) = (unused, c, σ)` and four Gaussian terms
  over `(P (9+3k), P (10+3k), P (11+3k)) = (amplitude, mean, stddev)`.

    energy = Σ_j 4c · ((σ/d)^12 − (σ/d)^6) + Σ_k a · exp(−(d−μ)² / (2 s²))
    force  = Σ_j −4c · (4σ^6/d^7 − 12σ^12/d^13) + Σ_k −(a (d−μ) exp(…) (d−μ)² / s²) / s²

  Integer powers are products by repeated squaring, spelt here exactly as both programs spell them. One program
  accumulates the seven terms left to right from zero (`energy`, `force`: it SUBTRACTS each force term); the other sums
  the Lennard-Jones terms and the Gaussian terms apart and adds the two sums (`energySplit`, `forceSplit`: it ADDS
  each force term with the sign moved inside, `−4` a literal and the Gaussian numerator negated before its last
  quotient). The two agree on every extended real: addition is a commutative monoid there, `x − y = x + −y`,
  `−x · y = −(x · y)`, and the quotient commutes with negation except at `0 / 0`, which the second quotient by `s²`
  never meets, its numerator being itself a quotient by `s²` (by zero that is an infinity, never zero).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-! ## The literals -/

/-- `4.0`. -/
abbrev c4 : EReal := Ideal.ofBits .f32 0x40800000#32
/-- `-4.0`. -/
abbrev cm4 : EReal := Ideal.ofBits .f32 0xC0800000#32
/-- `12.0`. -/
abbrev c12 : EReal := Ideal.ofBits .f32 0x41400000#32
/-- `2.0`. -/
abbrev c2 : EReal := Ideal.ofBits .f32 0x40000000#32

theorem c4_eq : c4 = ((4 : ℝ) : EReal) := by
  simp [c4, Ideal.ofBits, Ideal.ieee, -EReal.coe_mul]; norm_num

theorem cm4_eq : cm4 = ((-4 : ℝ) : EReal) := by
  simp [cm4, Ideal.ofBits, Ideal.ieee, -EReal.coe_mul]; norm_num

/-- The literal `-4.0` is the negation of the literal `4.0`. -/
theorem cm4_eq_neg : cm4 = -c4 := by
  rw [cm4_eq, c4_eq, ← EReal.coe_neg]

/-! ## Integer powers by repeated squaring -/

/-- `x^6 = x² · (x²)²`. -/
def pw6 (x : EReal) : EReal := (x * x) * ((x * x) * (x * x))
/-- `x^7 = (x · x²) · (x²)²`. -/
def pw7 (x : EReal) : EReal := (x * (x * x)) * ((x * x) * (x * x))
/-- `x^12 = x⁴ · (x⁴)²`. -/
def pw12 (x : EReal) : EReal := ((x * x) * (x * x)) * (((x * x) * (x * x)) * ((x * x) * (x * x)))
/-- `x^13 = (x · x⁴) · (x⁴)²`. -/
def pw13 (x : EReal) : EReal := (x * ((x * x) * (x * x))) * (((x * x) * (x * x)) * ((x * x) * (x * x)))

/-! ## One Lennard-Jones term -/

/-- `4c · ((σ/d)^12 − (σ/d)^6)`. -/
def ljE (d c s : EReal) : EReal :=
  (c4 * c) * (pw6 (Ideal.div s d) * pw6 (Ideal.div s d) - pw6 (Ideal.div s d))

/-- `4σ^6/d^7 − 12σ^12/d^13`. -/
def ljX (d s : EReal) : EReal :=
  Ideal.div (c4 * pw6 s) (pw7 d) - Ideal.div (c12 * pw12 s) (pw13 d)

/-- The force term as subtracted: `4c · (…)`. -/
def ljF (d c s : EReal) : EReal := (c4 * c) * ljX d s
/-- The force term as added: `(−4)c · (…)`. -/
def ljFneg (d c s : EReal) : EReal := (cm4 * c) * ljX d s

theorem ljFneg_eq (d c s : EReal) : ljFneg d c s = -ljF d c s := by
  unfold ljFneg ljF
  rw [cm4_eq_neg, EReal.neg_mul, EReal.neg_mul]

/-! ## One Gaussian term -/

/-- `exp(−(d−μ)² / (2 s²))`. -/
def gx (d mu s : EReal) : EReal :=
  Ideal.exp (Ideal.div (-((d - mu) * (d - mu))) (c2 * (s * s)))

/-- `a · exp(…)`. -/
def gE (d a mu s : EReal) : EReal := a * gx d mu s

/-- The numerator `a (d−μ) exp(…) (d−μ)²`. -/
def gY (d a mu s : EReal) : EReal := ((a * (d - mu)) * gx d mu s) * ((d - mu) * (d - mu))

/-- The force term as subtracted: `(Y / s²) / s²`. -/
def gF (d a mu s : EReal) : EReal := Ideal.div (Ideal.div (gY d a mu s) (s * s)) (s * s)
/-- The force term as added: `(−(Y / s²)) / s²`. -/
def gFneg (d a mu s : EReal) : EReal := Ideal.div (-(Ideal.div (gY d a mu s) (s * s))) (s * s)

/-- A quotient by `b` of the negated quotient by `b` is the negated double quotient: off zero the quotient is a
    product and `−x · y = −(x · y)`; at `b = 0` the inner quotient is `⊤` or `⊥`, whose negation the outer quotient
    by zero sends to the opposite infinity. -/
theorem div_neg_div (y b : EReal) : Ideal.div (-(Ideal.div y b)) b = -(Ideal.div (Ideal.div y b) b) := by
  unfold Ideal.div
  by_cases hb : b = 0
  · simp only [hb, if_true]
    by_cases hy : 0 < y
    · simp [hy]
    · simp [hy]
  · simp only [hb, if_false]
    rw [EReal.neg_mul]

theorem gFneg_eq (d a mu s : EReal) : gFneg d a mu s = -gF d a mu s := by
  unfold gFneg gF
  exact div_neg_div _ _

/-! ## A sample's energy and force -/

/-- The energy, the seven terms accumulated left to right from zero. -/
def energy (d : EReal) (P : Fin 21 → EReal) : EReal :=
  ((((((0 + ljE d (P 1) (P 2)) + ljE d (P 4) (P 5)) + ljE d (P 7) (P 8))
    + gE d (P 9) (P 10) (P 11)) + gE d (P 12) (P 13) (P 14)) + gE d (P 15) (P 16) (P 17)) + gE d (P 18) (P 19) (P 20)

/-- The force, the seven terms subtracted left to right from zero. -/
def force (d : EReal) (P : Fin 21 → EReal) : EReal :=
  ((((((0 - ljF d (P 1) (P 2)) - ljF d (P 4) (P 5)) - ljF d (P 7) (P 8))
    - gF d (P 9) (P 10) (P 11)) - gF d (P 12) (P 13) (P 14)) - gF d (P 15) (P 16) (P 17)) - gF d (P 18) (P 19) (P 20)

/-- The energy as the sum of the Lennard-Jones sum and the Gaussian sum, each from zero. -/
def energySplit (d : EReal) (P : Fin 21 → EReal) : EReal :=
  (0 + ((ljE d (P 1) (P 2) + ljE d (P 4) (P 5)) + ljE d (P 7) (P 8)))
    + (0 + (((gE d (P 9) (P 10) (P 11) + gE d (P 12) (P 13) (P 14)) + gE d (P 15) (P 16) (P 17)) + gE d (P 18) (P 19) (P 20)))

/-- The force as the sum of the two sums of the negated terms. -/
def forceSplit (d : EReal) (P : Fin 21 → EReal) : EReal :=
  (0 + ((ljFneg d (P 1) (P 2) + ljFneg d (P 4) (P 5)) + ljFneg d (P 7) (P 8)))
    + (0 + (((gFneg d (P 9) (P 10) (P 11) + gFneg d (P 12) (P 13) (P 14)) + gFneg d (P 15) (P 16) (P 17)) + gFneg d (P 18) (P 19) (P 20)))

theorem energySplit_eq (d : EReal) (P : Fin 21 → EReal) : energySplit d P = energy d P := by
  unfold energySplit energy
  simp only [zero_add]
  ac_rfl

theorem forceSplit_eq (d : EReal) (P : Fin 21 → EReal) : forceSplit d P = force d P := by
  unfold forceSplit force
  simp only [ljFneg_eq, gFneg_eq, zero_add, sub_eq_add_neg]
  ac_rfl

/-! ## All samples -/

/-- One extended real per sample. -/
abbrev PerSample := (⟨1, ![4194304]⟩ : Shape).Idx → EReal
/-- Twenty-one extended reals per sample. -/
abbrev Params := (⟨2, ![4194304, 21]⟩ : Shape).Idx → EReal

/-- The energies: entry `b` is the energy of distance `b` and of row `b` of the parameters. -/
def energies (d : PerSample) (p : Params) : PerSample := fun i =>
  energy (d (ix1 (n := 4194304) (i 0))) (fun k => p (ix2 (n0 := 4194304) (i 0) k))

/-- The forces. -/
def forces (d : PerSample) (p : Params) : PerSample := fun i =>
  force (d (ix1 (n := 4194304) (i 0))) (fun k => p (ix2 (n0 := 4194304) (i 0) k))

end Cert.Spec

end
-- ==== Proof.RefLayout.lean ====
/-
  The reference reads its two arguments through slices, reshapes and broadcasts: here each such array, at the sample
  `b` and the term `j`, is named as the entry of the argument it is.

  The parameter array is `[B, 21]`. Its first nine columns reshaped to `[B, 3, 3]` and cut at the last coordinate give, for
  the Lennard-Jones term `j`, the coefficient at column `3j + 1` and the length at column `3j + 2`; its last twelve
  columns reshaped to `[B, 4, 3]` give, for the Gaussian term `k`, the amplitude, mean and width at columns `9 + 3k`,
  `10 + 3k`, `11 + 3k`. The distance `[B]` is read as a column `[B, 1]` and repeated along the terms. A reshape reads its
  operand at the same row-major position, so each identification is arithmetic on that position.
-/
import proofs.«154611_j1288490189271_1_alg».proof.Proof.Gen.ReferenceIdeal.Read
import Idealize.ShloMosaic.Lib.ValueIdx

noncomputable section

namespace Cert.RefLayout

open Cert.ReferenceIdeal Cert.ReferenceIdeal.Gen Cert.ReferenceIdeal.Read
open Idealize.ShloMosaic Idealize.ShloMosaic.ValueIdx

/-- The distances, one per sample. -/
abbrev Dist := (⟨S4194304, .f32⟩ : BufTy).Contents (Elt Ideal)
/-- The parameters, 21 per sample. -/
abbrev Par := (⟨S4194304x21, .f32⟩ : BufTy).Contents (Elt Ideal)

variable (x0 : Dist) (x1 : Par) (b : Fin 4194304)

/-- The distance as a column, at row `b`. -/
theorem dcol_at : val_main_v0 (F := Ideal) x0 (ix2 b (0 : Fin 1)) = x0 (ix1 b) := by
  rw [val_main_v0_apply]
  exact congrArg x0 (funext fun a => by match a with | ⟨0, _⟩ => rfl)

/-- The distance repeated along the three Lennard-Jones terms. -/
theorem d3_at (j : Fin 3) : val_main_v7 (F := Ideal) x0 (ix2 b j) = x0 (ix1 b) := by
  rw [val_main_v7_apply, val_main_v0_apply]
  exact congrArg x0 (funext fun a => by match a with | ⟨0, _⟩ => rfl)

/-- The distance repeated along the four Gaussian terms. -/
theorem d4_at (k : Fin 4) : val_main_v53 (F := Ideal) x0 (ix2 b k) = x0 (ix1 b) := by
  rw [val_main_v53_apply, val_main_v0_apply]
  exact congrArg x0 (funext fun a => by match a with | ⟨0, _⟩ => rfl)

/-- The seventh power of the distance, a column, repeated along the three terms. -/
theorem d7_at (j : Fin 3) :
    val_main_v28 (F := Ideal) x0 (ix2 b j) = val_main_v27 (F := Ideal) x0 (ix2 b (0 : Fin 1)) := by
  rw [val_main_v28_apply]
  exact congrArg (val_main_v27 (F := Ideal) x0) (funext fun a => by match a with | ⟨0, _⟩ => rfl | ⟨1, _⟩ => rfl)

/-- The thirteenth power of the distance, a column, repeated along the three terms. -/
theorem d13_at (j : Fin 3) :
    val_main_v41 (F := Ideal) x0 (ix2 b j) = val_main_v40 (F := Ideal) x0 (ix2 b (0 : Fin 1)) := by
  rw [val_main_v41_apply]
  exact congrArg (val_main_v40 (F := Ideal) x0) (funext fun a => by match a with | ⟨0, _⟩ => rfl | ⟨1, _⟩ => rfl)

/-- The Lennard-Jones coefficient of term `j` is column `3j + 1`. -/
theorem ljc_at (j : Fin 3) :
    val_main_v4 (F := Ideal) x1 (ix2 b j) = x1 (ix2 b (⟨3 * j.val + 1, by omega⟩ : Fin 21)) := by
  rw [val_main_v4_apply, val_main_v3_apply, val_main_v2_apply, val_main_v1_apply]
  have hb := b.isLt
  have hj := j.isLt
  refine congrArg x1 (funext fun a => Fin.ext ?_)
  match a with
  | ⟨0, _⟩ =>
    show ((((b.val * 3 + j.val) / 3) * 3 + (b.val * 3 + j.val) / 1 % 3) * 3 + (1 + 0)) / 9 = b.val
    omega
  | ⟨1, _⟩ =>
    show ((((b.val * 3 + j.val) / 3) * 3 + (b.val * 3 + j.val) / 1 % 3) * 3 + (1 + 0)) % 9 = 3 * j.val + 1
    omega

/-- The Lennard-Jones length of term `j` is column `3j + 2`. -/
theorem ljs_at (j : Fin 3) :
    val_main_v6 (F := Ideal) x1 (ix2 b j) = x1 (ix2 b (⟨3 * j.val + 2, by omega⟩ : Fin 21)) := by
  rw [val_main_v6_apply, val_main_v5_apply, val_main_v2_apply, val_main_v1_apply]
  have hb := b.isLt
  have hj := j.isLt
  refine congrArg x1 (funext fun a => Fin.ext ?_)
  match a with
  | ⟨0, _⟩ =>
    show ((((b.val * 3 + j.val) / 3) * 3 + (b.val * 3 + j.val) / 1 % 3) * 3 + (2 + 0)) / 9 = b.val
    omega
  | ⟨1, _⟩ =>
    show ((((b.val * 3 + j.val) / 3) * 3 + (b.val * 3 + j.val) / 1 % 3) * 3 + (2 + 0)) % 9 = 3 * j.val + 2
    omega

/-- The Gaussian amplitude of term `k` is column `9 + 3k`. -/
theorem ga_at (k : Fin 4) :
    val_main_v48 (F := Ideal) x1 (ix2 b k) = x1 (ix2 b (⟨9 + 3 * k.val, by omega⟩ : Fin 21)) := by
  rw [val_main_v48_apply, val_main_v47_apply, val_main_v46_apply, val_main_v45_apply]
  have hb := b.isLt
  have hk := k.isLt
  refine congrArg x1 (funext fun a => Fin.ext ?_)
  match a with
  | ⟨0, _⟩ =>
    show ((((b.val * 4 + k.val) / 4) * 4 + (b.val * 4 + k.val) / 1 % 4) * 3 + 0) / 12 = b.val
    omega
  | ⟨1, _⟩ =>
    show 9 + ((((b.val * 4 + k.val) / 4) * 4 + (b.val * 4 + k.val) / 1 % 4) * 3 + 0) % 12 = 9 + 3 * k.val
    omega

/-- The Gaussian mean of term `k` is column `10 + 3k`. -/
theorem gmu_at (k : Fin 4) :
    val_main_v50 (F := Ideal) x1 (ix2 b k) = x1 (ix2 b (⟨10 + 3 * k.val, by omega⟩ : Fin 21)) := by
  rw [val_main_v50_apply, val_main_v49_apply, val_main_v46_apply, val_main_v45_apply]
  have hb := b.isLt
  have hk := k.isLt
  refine congrArg x1 (funext fun a => Fin.ext ?_)
  match a with
  | ⟨0, _⟩ =>
    show ((((b.val * 4 + k.val) / 4) * 4 + (b.val * 4 + k.val) / 1 % 4) * 3 + (1 + 0)) / 12 = b.val
    omega
  | ⟨1, _⟩ =>
    show 9 + ((((b.val * 4 + k.val) / 4) * 4 + (b.val * 4 + k.val) / 1 % 4) * 3 + (1 + 0)) % 12 = 10 + 3 * k.val
    omega

/-- The Gaussian width of term `k` is column `11 + 3k`. -/
theorem gs_at (k : Fin 4) :
    val_main_v52 (F := Ideal) x1 (ix2 b k) = x1 (ix2 b (⟨11 + 3 * k.val, by omega⟩ : Fin 21)) := by
  rw [val_main_v52_apply, val_main_v51_apply, val_main_v46_apply, val_main_v45_apply]
  have hb := b.isLt
  have hk := k.isLt
  refine congrArg x1 (funext fun a => Fin.ext ?_)
  match a with
  | ⟨0, _⟩ =>
    show ((((b.val * 4 + k.val) / 4) * 4 + (b.val * 4 + k.val) / 1 % 4) * 3 + (2 + 0)) / 12 = b.val
    omega
  | ⟨1, _⟩ =>
    show 9 + ((((b.val * 4 + k.val) / 4) * 4 + (b.val * 4 + k.val) / 1 % 4) * 3 + (2 + 0)) % 12 = 11 + 3 * k.val
    omega

/-! ## The literals, repeated along the terms -/

theorem four_a_at (j : Fin 3) : val_main_v13 (F := Ideal) (ix2 b j) = Ideal.ofBits .f32 0x40800000#32 := by
  rw [val_main_v13_apply, val_main_cst_apply]; rfl

theorem negfour_at (j : Fin 3) : val_main_v17 (F := Ideal) (ix2 b j) = Ideal.ofBits .f32 0xC0800000#32 := by
  rw [val_main_v17_apply, val_main_cst_0_apply]; rfl

theorem four_b_at (j : Fin 3) : val_main_v22 (F := Ideal) (ix2 b j) = Ideal.ofBits .f32 0x40800000#32 := by
  rw [val_main_v22_apply, val_main_cst_1_apply]; rfl

theorem twelve_at (j : Fin 3) : val_main_v34 (F := Ideal) (ix2 b j) = Ideal.ofBits .f32 0x41400000#32 := by
  rw [val_main_v34_apply, val_main_cst_2_apply]; rfl

theorem two_at (k : Fin 4) : val_main_v58 (F := Ideal) (ix2 b k) = Ideal.ofBits .f32 0x40000000#32 := by
  rw [val_main_v58_apply, val_main_cst_3_apply]; rfl

end Cert.RefLayout

end
-- ==== Proof.RefValue.lean ====
/-
  The reference's two results at a sample `b`, as the sample's energy and force (Proof/Spec.lean).

  Each term array of the reference, `[B, 3]` for the Lennard-Jones terms and `[B, 4]` for the Gaussian ones, is an
  elementwise expression of the argument entries Proof/RefLayout.lean names, so at `(b, j)` it is the scalar term of
  sample `b`; the two results are the sums over `j` from zero, added: `energySplit` and `forceSplit`.
-/
import proofs.«154611_j1288490189271_1_alg».proof.Proof.RefLayout
import proofs.«154611_j1288490189271_1_alg».proof.Proof.Spec

noncomputable section

namespace Cert.RefValue

open Cert.ReferenceIdeal Cert.ReferenceIdeal.Gen Cert.ReferenceIdeal.Read
open Idealize.ShloMosaic Idealize.ShloMosaic.ValueIdx
open Cert.Spec Cert.RefLayout

variable (x0 : Dist) (x1 : Par) (b : Fin 4194304)

/-- The column `d^7` at row `b`. -/
theorem d7col_at : val_main_v27 (F := Ideal) x0 (ix2 b (0 : Fin 1)) = pw7 (x0 (ix1 b)) := by
  simp only [val_main_v27_apply, val_main_v26_apply, val_main_v25_apply, val_main_v24_apply, dcol_at]
  rfl

/-- The column `d^13` at row `b`. -/
theorem d13col_at : val_main_v40 (F := Ideal) x0 (ix2 b (0 : Fin 1)) = pw13 (x0 (ix1 b)) := by
  simp only [val_main_v40_apply, val_main_v39_apply, val_main_v38_apply, val_main_v37_apply, val_main_v36_apply, dcol_at]
  rfl

/-- The Lennard-Jones energy term `j` of sample `b`. -/
theorem ljE_at (j : Fin 3) :
    val_main_v16 (F := Ideal) x0 x1 (ix2 b j)
      = ljE (x0 (ix1 b)) (x1 (ix2 b (⟨3 * j.val + 1, by omega⟩ : Fin 21))) (x1 (ix2 b (⟨3 * j.val + 2, by omega⟩ : Fin 21))) := by
  simp only [val_main_v16_apply, val_main_v15_apply, val_main_v14_apply, val_main_v12_apply, val_main_v11_apply,
    val_main_v10_apply, val_main_v9_apply, val_main_v8_apply, four_a_at, ljc_at, ljs_at, d3_at]
  rfl

/-- The Lennard-Jones force term `j` of sample `b`, the sign inside. -/
theorem ljFneg_at (j : Fin 3) :
    val_main_v44 (F := Ideal) x0 x1 (ix2 b j)
      = ljFneg (x0 (ix1 b)) (x1 (ix2 b (⟨3 * j.val + 1, by omega⟩ : Fin 21))) (x1 (ix2 b (⟨3 * j.val + 2, by omega⟩ : Fin 21))) := by
  simp only [val_main_v44_apply, val_main_v43_apply, val_main_v42_apply, val_main_v35_apply, val_main_v33_apply,
    val_main_v32_apply, val_main_v31_apply, val_main_v30_apply, val_main_v29_apply, val_main_v23_apply, val_main_v21_apply,
    val_main_v20_apply, val_main_v19_apply, val_main_v18_apply, negfour_at, four_b_at, twelve_at, ljc_at, ljs_at,
    d7_at, d13_at, d7col_at, d13col_at]
  rfl

/-- The Gaussian energy term `k` of sample `b`. -/
theorem gE_at (k : Fin 4) :
    val_main_v62 (F := Ideal) x0 x1 (ix2 b k)
      = gE (x0 (ix1 b)) (x1 (ix2 b (⟨9 + 3 * k.val, by omega⟩ : Fin 21))) (x1 (ix2 b (⟨10 + 3 * k.val, by omega⟩ : Fin 21)))
          (x1 (ix2 b (⟨11 + 3 * k.val, by omega⟩ : Fin 21))) := by
  simp only [val_main_v62_apply, val_main_v61_apply, val_main_v60_apply, val_main_v59_apply, val_main_v57_apply,
    val_main_v56_apply, val_main_v55_apply, val_main_v54_apply, two_at, ga_at, gmu_at, gs_at, d4_at]
  rfl

/-- The Gaussian force term `k` of sample `b`, the sign inside. -/
theorem gFneg_at (k : Fin 4) :
    val_main_v71 (F := Ideal) x0 x1 (ix2 b k)
      = gFneg (x0 (ix1 b)) (x1 (ix2 b (⟨9 + 3 * k.val, by omega⟩ : Fin 21))) (x1 (ix2 b (⟨10 + 3 * k.val, by omega⟩ : Fin 21)))
          (x1 (ix2 b (⟨11 + 3 * k.val, by omega⟩ : Fin 21))) := by
  simp only [val_main_v71_apply, val_main_v70_apply, val_main_v69_apply, val_main_v68_apply, val_main_v67_apply,
    val_main_v66_apply, val_main_v65_apply, val_main_v64_apply, val_main_v63_apply, val_main_v61_apply, val_main_v60_apply,
    val_main_v59_apply, val_main_v57_apply, val_main_v56_apply, val_main_v55_apply, val_main_v54_apply, two_at, ga_at,
    gmu_at, gs_at, d4_at]
  rfl

/-- Row `b` of a `[B, 3]` array, term by term. -/
theorem row3 (k : Fin 3) : idx_main_v72 (ix1 b) k = ix2 b k :=
  funext fun a => by match a with | ⟨0, _⟩ => rfl | ⟨1, _⟩ => rfl
theorem row3' (k : Fin 3) : idx_main_v75 (ix1 b) k = ix2 b k :=
  funext fun a => by match a with | ⟨0, _⟩ => rfl | ⟨1, _⟩ => rfl
/-- Row `b` of a `[B, 4]` array, term by term. -/
theorem row4 (k : Fin 4) : idx_main_v73 (ix1 b) k = ix2 b k :=
  funext fun a => by match a with | ⟨0, _⟩ => rfl | ⟨1, _⟩ => rfl
theorem row4' (k : Fin 4) : idx_main_v76 (ix1 b) k = ix2 b k :=
  funext fun a => by match a with | ⟨0, _⟩ => rfl | ⟨1, _⟩ => rfl

/-- The reference's first result at sample `b` is the sample's energy. -/
theorem energy_at :
    val_main_v74 (F := Ideal) x0 x1 (ix1 b) = energy (x0 (ix1 b)) (fun k => x1 (ix2 b k)) := by
  rw [← energySplit_eq, val_main_v74_apply, val_main_v72_apply, val_main_v73_apply, val_main_cst_4_apply, val_main_cst_5_apply]
  simp only [row3, row4, ljE_at, gE_at, Fin.sum_univ_three, Fin.sum_univ_four, Ideal.ofBits_def, Ideal.ofBits_zero_f32,
    Ideal.addf_def]
  rfl

/-- The reference's second result at sample `b` is the sample's force. -/
theorem force_at :
    val_main_v77 (F := Ideal) x0 x1 (ix1 b) = force (x0 (ix1 b)) (fun k => x1 (ix2 b k)) := by
  rw [← forceSplit_eq, val_main_v77_apply, val_main_v75_apply, val_main_v76_apply, val_main_cst_6_apply, val_main_cst_7_apply]
  simp only [row3', row4', ljFneg_at, gFneg_at, Fin.sum_univ_three, Fin.sum_univ_four, Ideal.ofBits_def, Ideal.ofBits_zero_f32,
    Ideal.addf_def]
  rfl

/-- The reference's first result is the energies of its arguments. -/
theorem energies_eq : val_main_v74 (F := Ideal) x0 x1 = energies x0 x1 := by
  funext i
  obtain ⟨b, rfl⟩ : ∃ b : Fin 4194304, i = ix1 b := ⟨i 0, eq_ix1 i⟩
  exact energy_at x0 x1 b

/-- The reference's second result is the forces of its arguments. -/
theorem forces_eq : val_main_v77 (F := Ideal) x0 x1 = forces x0 x1 := by
  funext i
  obtain ⟨b, rfl⟩ : ∃ b : Fin 4194304, i = ix1 b := ⟨i 0, eq_ix1 i⟩
  exact force_at x0 x1 b

end Cert.RefValue

end
-- ==== Proof.KernelBody.lean ====
/-
  What the kernel body leaves in its two output blocks, row by row, as the row's energy and force (Proof/Spec.lean).

  The body works on a block of 4096 samples: the distances as a column `[4096, 1]`, the parameters `[4096, 21]`. It reads
  the parameter block one column at a time and every operation is elementwise on columns, so row `r` of each output
  column is the scalar expression of row `r`'s distance and of row `r`'s 21 parameters. The body's values are cut
  into named pieces; below, each piece at a row is identified with the partial sum it is (the energy after the first
  Lennard-Jones term, after the third, after the first Gaussian term, …), the kernel's `0 − x` being `−x` and its
  zero literal `0`.
-/
import proofs.«154611_j1288490189271_1_alg».proof.Proof.Gen.KernelIdeal.Frame
import proofs.«154611_j1288490189271_1_alg».proof.Proof.Spec
import Idealize.ShloMosaic.Lib.ValueIdx
import Idealize.ShloMosaic.Lib.Pipeline.Value

noncomputable section

namespace Cert.KernelBody

open Cert.KernelIdeal Cert.KernelIdeal.Gen
open Idealize.ShloMosaic Idealize.ShloMosaic.ValueIdx
open Cert.Spec

/-- A column of 4096 extended reals. -/
abbrev Col := Vec Ideal S4096x1 .f32

/-! ## Loads -/

/-- Column `k` of the parameter block, at row `r`. -/
theorem ld_col (x1 : Vec Ideal S4096x21 .f32) (k : Nat) (hk : k < 21) (inb) (r : Fin 4096) :
    View.ld x1 (Rect.unit (s := S4096x21) ![0, k] S4096x1.size inb) (ix2 r (0 : Fin 1)) = x1 (ix2 r (⟨k, hk⟩ : Fin 21)) := by
  show x1 ((Rect.unit (s := S4096x21) ![0, k] S4096x1.size inb).emb (ix2 r (0 : Fin 1))) = _
  refine congrArg x1 (funext fun a => Fin.ext ?_)
  match a with
  | ⟨0, _⟩ => show 0 + 1 * r.val = r.val; omega
  | ⟨1, _⟩ => show k + 1 * 0 = k; omega

theorem hz : (![0, 0] : Fin 2 → Nat) = fun _ => 0 := funext fun a => by fin_cases a <;> rfl

/-- The distance column's cast to its own shape is the column. -/
theorem pay5_eq (v0 : Col) : k0_pay5 (F := Ideal) v0 = v0 := by
  unfold k0_pay5
  exact shapeCast_self _ _

/-! ## The Gaussian exponentials: the kernel's `0 − x` is `−x` -/

theorem gx_of_zero_sub (d mu s : EReal) :
    Ideal.exp (Ideal.div (Ideal.ofBits .f32 0x00000000#32 - (d - mu) * (d - mu)) (c2 * (s * s))) = gx d mu s := by
  rw [Ideal.ofBits_zero_f32, zero_sub]; rfl

theorem expA_eq (v1 mu s : Col) : k0_pay12 (F := Ideal) v1 mu s = fun y => gx (v1 y) (mu y) (s y) :=
  funext fun y => gx_of_zero_sub (v1 y) (mu y) (s y)
theorem expB_eq (v1 mu s : Col) : k0_pay16 (F := Ideal) v1 mu s = fun y => gx (v1 y) (mu y) (s y) :=
  funext fun y => gx_of_zero_sub (v1 y) (mu y) (s y)
theorem expC_eq (v1 mu s : Col) : k0_pay19 (F := Ideal) v1 mu s = fun y => gx (v1 y) (mu y) (s y) :=
  funext fun y => gx_of_zero_sub (v1 y) (mu y) (s y)
theorem expD_eq (v1 mu s : Col) : k0_pay2 (F := Ideal) v1 mu s = fun y => gx (v1 y) (mu y) (s y) :=
  funext fun y => gx_of_zero_sub (v1 y) (mu y) (s y)

/-! ## The energy's partial sums -/

variable (y : S4096x1.Idx)

/-- After the first Lennard-Jones term. -/
theorem e1_at (v0 c s : Col) : k0_pay6 (F := Ideal) v0 c s y = 0 + ljE (v0 y) (c y) (s y) := by
  unfold k0_pay6
  rw [pay5_eq]
  show Ideal.ofBits .f32 0x00000000#32 + ljE (v0 y) (c y) (s y) = _
  rw [Ideal.ofBits_zero_f32]

/-- After the third. -/
theorem e3_at (v1 e c2' s2 c3 s3 : Col) :
    k0_pay9 (F := Ideal) v1 e c2' s2 c3 s3 y = (e y + ljE (v1 y) (c2' y) (s2 y)) + ljE (v1 y) (c3 y) (s3 y) := rfl

/-- After the first Gaussian term. -/
theorem e4_at (v1 e a mu s : Col) : k0_pay13 (F := Ideal) v1 e a mu s y = e y + gE (v1 y) (a y) (mu y) (s y) := by
  unfold k0_pay13
  rw [expA_eq]
  rfl

/-- After the third Gaussian term. -/
theorem e6_at (v1 e a2 mu2 s2 a3 mu3 s3 : Col) :
    k0_pay20 (F := Ideal) v1 e a2 mu2 s2 a3 mu3 s3 y
      = (e y + gE (v1 y) (a2 y) (mu2 y) (s2 y)) + gE (v1 y) (a3 y) (mu3 y) (s3 y) := by
  unfold k0_pay20
  rw [expB_eq, expC_eq]
  rfl

/-- After the fourth: the stored energy. -/
theorem e7_at (v1 e a mu s : Col) : k0_pay3 (F := Ideal) v1 e a mu s y = e y + gE (v1 y) (a y) (mu y) (s y) := by
  unfold k0_pay3
  rw [expD_eq]
  rfl

/-! ## The force's partial differences -/

/-- After the first Lennard-Jones term. -/
theorem f1_at (v0 c s : Col) : k0_pay7 (F := Ideal) v0 c s y = 0 - ljF (v0 y) (c y) (s y) := by
  unfold k0_pay7
  rw [pay5_eq]
  show Ideal.ofBits .f32 0x00000000#32 - ljF (v0 y) (c y) (s y) = _
  rw [Ideal.ofBits_zero_f32]

/-- After the second. -/
theorem f2_at (v1 f c s : Col) : k0_pay8 (F := Ideal) v1 f c s y = f y - ljF (v1 y) (c y) (s y) := rfl

/-- After the third. -/
theorem f3_at (v1 f c s : Col) : k0_pay10 (F := Ideal) v1 f c s y = f y - ljF (v1 y) (c y) (s y) := rfl

/-- The first Gaussian force term. -/
theorem g1_at (v1 a mu s : Col) : k0_pay14 (F := Ideal) v1 a mu s y = gF (v1 y) (a y) (mu y) (s y) := by
  unfold k0_pay14
  rw [expA_eq]
  rfl

/-- After the first and the second Gaussian terms. -/
theorem f5_at (v1 f g a mu s : Col) :
    k0_pay17 (F := Ideal) v1 f g a mu s y = (f y - g y) - gF (v1 y) (a y) (mu y) (s y) := by
  unfold k0_pay17
  rw [expB_eq]
  rfl

/-- The third Gaussian force term before its second quotient. -/
theorem g3_at (v1 a mu s : Col) :
    k0_pay21 (F := Ideal) v1 a mu s y = Ideal.div (gY (v1 y) (a y) (mu y) (s y)) (s y * s y) := by
  unfold k0_pay21
  rw [expC_eq]
  rfl

/-- After the third and the fourth: the stored force. -/
theorem f7_at (v1 f s3 g a mu s : Col) :
    k0_pay4 (F := Ideal) v1 f s3 g a mu s y
      = (f y - Ideal.div (g y) (s3 y * s3 y)) - gF (v1 y) (a y) (mu y) (s y) := by
  unfold k0_pay4
  rw [expD_eq]
  rfl

/-! ## The two output blocks at a row -/

/-- Row `r` of the first output block is that row's energy. -/
theorem energy_row (x0 : Col) (x1 : Vec Ideal S4096x21 .f32) (r : Fin 4096) :
    out0_2 (F := Ideal) x0 x1 (ix2 r (0 : Fin 1)) = energy (x0 (ix2 r (0 : Fin 1))) (fun k => x1 (ix2 r k)) := by
  unfold out0_2
  rw [View.canon_unit_zero hz]
  simp only [View.ld_unit_zero (S := S4096x1) hz, pay5_eq]
  rw [e7_at, e6_at, e4_at, e3_at, e1_at]
  rw [ld_col x1 1 (by omega),
    ld_col x1 2 (by omega),
    ld_col x1 4 (by omega),
    ld_col x1 5 (by omega),
    ld_col x1 7 (by omega),
    ld_col x1 8 (by omega),
    ld_col x1 9 (by omega),
    ld_col x1 10 (by omega),
    ld_col x1 11 (by omega),
    ld_col x1 12 (by omega),
    ld_col x1 13 (by omega),
    ld_col x1 14 (by omega),
    ld_col x1 15 (by omega),
    ld_col x1 16 (by omega),
    ld_col x1 17 (by omega),
    ld_col x1 18 (by omega),
    ld_col x1 19 (by omega),
    ld_col x1 20 (by omega)]
  rfl

/-- Row `r` of the second output block is that row's force. -/
theorem force_row (x0 : Col) (x1 : Vec Ideal S4096x21 .f32) (r : Fin 4096) :
    out0_3 (F := Ideal) x0 x1 (ix2 r (0 : Fin 1)) = force (x0 (ix2 r (0 : Fin 1))) (fun k => x1 (ix2 r k)) := by
  unfold out0_3
  rw [View.canon_unit_zero hz]
  simp only [View.ld_unit_zero (S := S4096x1) hz, pay5_eq]
  rw [f7_at, f5_at, f3_at, f2_at, f1_at, g1_at, g3_at]
  rw [ld_col x1 1 (by omega),
    ld_col x1 2 (by omega),
    ld_col x1 4 (by omega),
    ld_col x1 5 (by omega),
    ld_col x1 7 (by omega),
    ld_col x1 8 (by omega),
    ld_col x1 9 (by omega),
    ld_col x1 10 (by omega),
    ld_col x1 11 (by omega),
    ld_col x1 12 (by omega),
    ld_col x1 13 (by omega),
    ld_col x1 14 (by omega),
    ld_col x1 15 (by omega),
    ld_col x1 16 (by omega),
    ld_col x1 17 (by omega),
    ld_col x1 18 (by omega),
    ld_col x1 19 (by omega),
    ld_col x1 20 (by omega)]
  rfl

end Cert.KernelBody

end
-- ==== Proof.KernelValue.lean ====
/-
  The kernel's two result arrays after the run, sample by sample, as the sample's energy and force (Proof/Spec.lean).

  The program reshapes the distances `[B]` to a column `[B, 1]`, runs the body over 1024 blocks of 4096 rows, and
  reshapes the two output columns back to `[B]`. Block `t` of every window is rows `4096 t … 4096 t + 4095`, so what
  point `t` writes back is rows `4096 t …` of ONE whole-array function: row `i` holds the energy (the force) of the
  distance and the parameters of row `i`. The blocks tile the column (row `i` lies in block `i / 4096`), hence each
  output column ends holding that function, and the final reshapes read it at the same row.
-/
import proofs.«154611_j1288490189271_1_alg».proof.Proof.Gen.KernelIdeal.Frame
import proofs.«154611_j1288490189271_1_alg».proof.Proof.KernelBody
import Idealize.ShloMosaic.Lib.Pipeline.Value
import Idealize.ShloMosaic.Lib.StableHlo.Run
import Idealize.ShloMosaic.Lib.Tactic

noncomputable section

namespace Cert.KernelValue

open Idealize.ShloMosaic Idealize.ShloMosaic.TcCoe Idealize.SL.Sem Idealize.ShloMosaic.ValueIdx
open Idealize.ShloMosaic.Pipeline (Dat)
open Cert.KernelIdeal Cert.KernelIdeal.Gen
open Cert.Spec Cert.KernelBody

variable (m : (ℓ : Loc nD τ sig) → Buf (Elt Ideal) ℓ) (ρ : Dev nD → PrngReg)

/-! ## The arrays the region finds -/

/-- The distance column as the region finds it. -/
abbrev dArr (c : Dev nD) : Vec Ideal S4194304x1 .f32 := V m c main_v0
/-- The parameters as the region finds them. -/
abbrev pArr (c : Dev nD) : Vec Ideal S4194304x21 .f32 := V m c main_arg1

/-- The distance column is the distances reshaped. -/
theorem dArr_eq (c : Dev nD) :
    dArr m c = shapeCast S4194304x1 (m ((c : Thread nD τ).loc main_arg0)) shapeCasts_S4194304_S4194304x1 := by
  show StableHlo.after hostOps0 (fun b => m (c, b)) (Proc.devRef .tc main_v0) = _
  after_results
  rfl

/-- Row `b` of the distance column is distance `b`. -/
theorem dArr_at (c : Dev nD) (b : Fin 4194304) :
    dArr m c (ix2 b (0 : Fin 1)) = (m ((c : Thread nD τ).loc main_arg0) : Vec Ideal S4194304 .f32) (ix1 b) := by
  rw [dArr_eq]
  refine shapeCast_apply _ shapeCasts_S4194304_S4194304x1 (ix2 b (0 : Fin 1)) (ix1 b) ?_
  rw [Shape.rowMajor_val_one, Shape.rowMajor_val_two]
  show b.val = b.val * 1 + 0
  omega

theorem pArr_eq (c : Dev nD) : pArr m c = m ((c : Thread nD τ).loc main_arg1) := V_main_arg1 m c

/-! ## The whole-array functions -/

/-- The energy column: row `i` holds the energy of row `i`'s distance and parameters. -/
def energyCol (c : Dev nD) : Vec Ideal S4194304x1 .f32 := fun i =>
  energy (dArr m c (ix2 (n0 := 4194304) (i 0) (0 : Fin 1))) (fun k => pArr m c (ix2 (n0 := 4194304) (i 0) k))

/-- The force column. -/
def forceCol (c : Dev nD) : Vec Ideal S4194304x1 .f32 := fun i =>
  force (dArr m c (ix2 (n0 := 4194304) (i 0) (0 : Fin 1))) (fun k => pArr m c (ix2 (n0 := 4194304) (i 0) k))

/-! ## The blocks -/

/-- Every window's block at point `t` starts at row `4096 · t` of its array and at column zero. -/
theorem idx_facts : ∀ t : Fin cfg0.N,
    win0_0.index t (0 : Fin 2) = win0_2.index t (0 : Fin 2) ∧ win0_0.index t (1 : Fin 2) = 0
    ∧ win0_1.index t (0 : Fin 2) = win0_2.index t (0 : Fin 2) ∧ win0_1.index t (1 : Fin 2) = 0
    ∧ win0_3.index t (0 : Fin 2) = win0_2.index t (0 : Fin 2) ∧ win0_3.index t (1 : Fin 2) = 0
    ∧ win0_2.index t (1 : Fin 2) = 0 ∧ win0_2.index t (0 : Fin 2) = t.val :=
  (by decide +kernel : ∀ t : Fin grid0.N, _)

/-- Row `r` of the distance block at point `t` is row `4096 t + r` of the column. -/
theorem dblk_at (c : Dev nD) (t : Fin cfg0.N) (r : Fin 4096) (i : S4194304x1.Idx)
    (hi : (i 0).val = win0_2.index t (0 : Fin 2) * 4096 + r.val) :
    (iblk m c 0 t : Vec Ideal S4096x1 .f32) (ix2 r (0 : Fin 1)) = dArr m c (ix2 (n0 := 4194304) (i 0) (0 : Fin 1)) := by
  obtain ⟨e00, e01, -⟩ := idx_facts t
  show V m c main_v0 (((cfg0.win 0).blk t).view.emb (ix2 r (0 : Fin 1))) = V m c main_v0 _
  refine congrArg (V m c main_v0) (funext fun a => Fin.ext ?_)
  match a with
  | ⟨0, _⟩ => show win0_0.index t (0 : Fin 2) * 4096 + 1 * r.val = (i 0).val; omega
  | ⟨1, _⟩ => show win0_0.index t (1 : Fin 2) * 1 + 1 * 0 = 0; omega

/-- Row `r` of the parameter block at point `t` is row `4096 t + r` of the parameters. -/
theorem pblk_at (c : Dev nD) (t : Fin cfg0.N) (r : Fin 4096) (k : Fin 21) (i : S4194304x1.Idx)
    (hi : (i 0).val = win0_2.index t (0 : Fin 2) * 4096 + r.val) :
    (iblk m c 1 t : Vec Ideal S4096x21 .f32) (ix2 r k) = pArr m c (ix2 (n0 := 4194304) (i 0) k) := by
  obtain ⟨-, -, e10, e11, -⟩ := idx_facts t
  show V m c main_arg1 (((cfg0.win 1).blk t).view.emb (ix2 r k)) = V m c main_arg1 _
  refine congrArg (V m c main_arg1) (funext fun a => Fin.ext ?_)
  match a with
  | ⟨0, _⟩ => show win0_1.index t (0 : Fin 2) * 4096 + 1 * r.val = (i 0).val; omega
  | ⟨1, _⟩ => show win0_1.index t (1 : Fin 2) * 21 + 1 * k.val = k.val; omega

/-- WHAT POINT `t` WRITES BACK to the energy column is block `t` of `energyCol`. -/
theorem flushedE_eq (c : Dev nD) (t : Fin cfg0.N) :
    (dats m 0 c).flushed 2 t = ((cfg0.win 2).blk t).view.read (Elt Ideal) (energyCol m c) := by
  show (cfg0.win 2).cut (grid0.coords t) ((dats m 0 c).after 2 t) = _
  rw [after0_2]
  funext j
  obtain ⟨r, q, rfl⟩ : ∃ (r : Fin 4096) (q : Fin 1), j = ix2 r q := ⟨j 0, j 1, eq_ix2 j⟩
  obtain rfl : q = 0 := Subsingleton.elim _ _
  show out0_2 (iblk m c 0 t) (iblk m c 1 t) (ix2 r (0 : Fin 1)) = energyCol m c (((cfg0.win 2).blk t).view.emb (ix2 r (0 : Fin 1)))
  refine (energy_row (iblk m c 0 t) (iblk m c 1 t) r).trans ?_
  unfold energyCol
  have hi : ((((cfg0.win 2).blk t).view.emb (ix2 r (0 : Fin 1))) 0).val = win0_2.index t (0 : Fin 2) * 4096 + r.val := by
    show win0_2.index t (0 : Fin 2) * 4096 + 1 * r.val = _; omega
  rw [dblk_at m c t r _ hi]
  exact congrArg _ (funext fun k => pblk_at m c t r k _ hi)

/-- WHAT POINT `t` WRITES BACK to the force column is block `t` of `forceCol`. -/
theorem flushedF_eq (c : Dev nD) (t : Fin cfg0.N) :
    (dats m 0 c).flushed 3 t = ((cfg0.win 3).blk t).view.read (Elt Ideal) (forceCol m c) := by
  show (cfg0.win 3).cut (grid0.coords t) ((dats m 0 c).after 3 t) = _
  rw [after0_3]
  obtain ⟨-, -, -, -, e30, -⟩ := idx_facts t
  funext j
  obtain ⟨r, q, rfl⟩ : ∃ (r : Fin 4096) (q : Fin 1), j = ix2 r q := ⟨j 0, j 1, eq_ix2 j⟩
  obtain rfl : q = 0 := Subsingleton.elim _ _
  show out0_3 (iblk m c 0 t) (iblk m c 1 t) (ix2 r (0 : Fin 1)) = forceCol m c (((cfg0.win 3).blk t).view.emb (ix2 r (0 : Fin 1)))
  refine (force_row (iblk m c 0 t) (iblk m c 1 t) r).trans ?_
  unfold forceCol
  have hi : ((((cfg0.win 3).blk t).view.emb (ix2 r (0 : Fin 1))) 0).val = win0_2.index t (0 : Fin 2) * 4096 + r.val := by
    show win0_3.index t (0 : Fin 2) * 4096 + 1 * r.val = _; omega
  rw [dblk_at m c t r _ hi]
  exact congrArg _ (funext fun k => pblk_at m c t r k _ hi)

/-! ## The blocks tile the columns -/

/-- An index of the energy column is in point `t`'s block iff each coordinate is in the block's range on its axis. -/
theorem mem_blkE (t : Fin cfg0.N) (i : S4194304x1.Idx) :
    i ∈ ((cfg0.win 2).blk t).view.set ↔ ∀ a : Fin 2, win0_2.index t a * S4096x1.size a ≤ (i a).val ∧ (i a).val < win0_2.index t a * S4096x1.size a + S4096x1.size a := by
  show i ∈ ((View.whole main_v1_0).slice (win0_2.rect t)).set ↔ _
  rw [View.set_slice_whole, Rect.mem_set_unit]
  exact Iff.rfl

/-- The same for the force column. -/
theorem mem_blkF (t : Fin cfg0.N) (i : S4194304x1.Idx) :
    i ∈ ((cfg0.win 3).blk t).view.set ↔ ∀ a : Fin 2, win0_3.index t a * S4096x1.size a ≤ (i a).val ∧ (i a).val < win0_3.index t a * S4096x1.size a + S4096x1.size a := by
  show i ∈ ((View.whole main_v1_1).slice (win0_3.rect t)).set ↔ _
  rw [View.set_slice_whole, Rect.mem_set_unit]
  exact Iff.rfl

/-- The point whose block holds row `i`: `i / 4096`. -/
def pointOf (i : S4194304x1.Idx) : Fin cfg0.N :=
  ⟨(i 0).val / 4096, by
    have hi0 : (i 0).val < 4194304 := (i 0).isLt
    have hN : cfg0.N = 1024 := N_0
    rw [hN]; omega⟩

theorem pointOf_val (i : S4194304x1.Idx) : (pointOf i).val = (i 0).val / 4096 := rfl

/-- Row `i` of the energy column lies in the block of point `i / 4096`. -/
theorem coverE (i : S4194304x1.Idx) :
    ∃ t : Fin cfg0.N, (cfg0.win 2).flush t = true ∧ i ∈ ((cfg0.win 2).blk t).view.set := by
  have hi1 : (i 1).val < 1 := (i 1).isLt
  have hp := pointOf_val i
  obtain ⟨-, -, -, -, -, -, e21, e20⟩ := idx_facts (pointOf i)
  refine ⟨pointOf i, flush0_2 _, ?_⟩
  rw [mem_blkE]
  intro a
  match a with
  | ⟨0, _⟩ =>
    show win0_2.index (pointOf i) (0 : Fin 2) * 4096 ≤ (i 0).val ∧ (i 0).val < win0_2.index (pointOf i) (0 : Fin 2) * 4096 + 4096
    omega
  | ⟨1, _⟩ =>
    show win0_2.index (pointOf i) (1 : Fin 2) * 1 ≤ (i 1).val ∧ (i 1).val < win0_2.index (pointOf i) (1 : Fin 2) * 1 + 1
    omega

/-- Row `i` of the force column lies in the block of point `i / 4096`. -/
theorem coverF (i : S4194304x1.Idx) :
    ∃ t : Fin cfg0.N, (cfg0.win 3).flush t = true ∧ i ∈ ((cfg0.win 3).blk t).view.set := by
  have hi1 : (i 1).val < 1 := (i 1).isLt
  have hp := pointOf_val i
  obtain ⟨-, -, -, -, e30, e31, -, e20⟩ := idx_facts (pointOf i)
  refine ⟨pointOf i, flush0_3 _, ?_⟩
  rw [mem_blkF]
  intro a
  match a with
  | ⟨0, _⟩ =>
    show win0_3.index (pointOf i) (0 : Fin 2) * 4096 ≤ (i 0).val ∧ (i 0).val < win0_3.index (pointOf i) (0 : Fin 2) * 4096 + 4096
    omega
  | ⟨1, _⟩ =>
    show win0_3.index (pointOf i) (1 : Fin 2) * 1 ≤ (i 1).val ∧ (i 1).val < win0_3.index (pointOf i) (1 : Fin 2) * 1 + 1
    omega

/-- THE ENERGY COLUMN after the run. -/
theorem finalE (c : Dev nD) : (dats m 0 c).arrAt 2 cfg0.N = energyCol m c :=
  (dats m 0 c).arrAt_eq_of_cover 2 (energyCol m c) (fun t _ => flushedE_eq m c t) coverE

/-- THE FORCE COLUMN after the run. -/
theorem finalF (c : Dev nD) : (dats m 0 c).arrAt 3 cfg0.N = forceCol m c :=
  (dats m 0 c).arrAt_eq_of_cover 3 (forceCol m c) (fun t _ => flushedF_eq m c t) coverF

/-! ## The reshapes after the region -/

/-- The first result is the energy column reshaped. -/
theorem tailE (c : Dev nD) :
    Pipeline.afterTail₀ cfgs (dats m) 0 (V0 m) [hostOps1] c main_v2
      = shapeCast S4194304 (energyCol m c) shapeCasts_S4194304x1_S4194304 := by
  unfold Pipeline.afterTail₀
  show StableHlo.after hostOps1 _ (Proc.devRef .tc main_v2) = _
  after_results
  rw [show Pipeline.withArrays (cfgs 0).spec c (V0 m c) (fun w => (dats m 0 c).arrAt w (cfgs 0).N) (Proc.tc.devRef main_v1_0) = energyCol m c from
    (Pipeline.withArrays_arr spec0 launch0.win.arr_inj c _ _ 2).trans (finalE m c)]
  rfl

/-- The second result is the force column reshaped. -/
theorem tailF (c : Dev nD) :
    Pipeline.afterTail₀ cfgs (dats m) 0 (V0 m) [hostOps1] c main_v3
      = shapeCast S4194304 (forceCol m c) shapeCasts_S4194304x1_S4194304 := by
  unfold Pipeline.afterTail₀
  show StableHlo.after hostOps1 _ (Proc.devRef .tc main_v3) = _
  after_results
  rw [show Pipeline.withArrays (cfgs 0).spec c (V0 m c) (fun w => (dats m 0 c).arrAt w (cfgs 0).N) (Proc.tc.devRef main_v1_1) = forceCol m c from
    (Pipeline.withArrays_arr spec0 launch0.win.arr_inj c _ _ 3).trans (finalF m c)]
  rfl

/-! ## The results as functions of the arguments -/

/-- Entry `b` of a column reshaped to a vector is row `b` of the column. -/
theorem uncol_at (x : Vec Ideal S4194304x1 .f32) (b : Fin 4194304) :
    shapeCast S4194304 x shapeCasts_S4194304x1_S4194304 (ix1 b) = x (ix2 b (0 : Fin 1)) := by
  refine shapeCast_apply x shapeCasts_S4194304x1_S4194304 (ix1 b) (ix2 b (0 : Fin 1)) ?_
  rw [Shape.rowMajor_val_one, Shape.rowMajor_val_two]
  show b.val * 1 + 0 = b.val
  omega

theorem resE (c : Dev nD) :
    Pipeline.afterTail₀ cfgs (dats m) 0 (V0 m) [hostOps1] c main_v2
      = energies (m ((c : Thread nD τ).loc main_arg0)) (m ((c : Thread nD τ).loc main_arg1)) := by
  rw [tailE]
  funext i
  obtain ⟨b, rfl⟩ : ∃ b : Fin 4194304, i = ix1 b := ⟨i 0, eq_ix1 i⟩
  rw [uncol_at]
  unfold energyCol energies
  rw [dArr_at, pArr_eq]

theorem resF (c : Dev nD) :
    Pipeline.afterTail₀ cfgs (dats m) 0 (V0 m) [hostOps1] c main_v3
      = forces (m ((c : Thread nD τ).loc main_arg0)) (m ((c : Thread nD τ).loc main_arg1)) := by
  rw [tailF]
  funext i
  obtain ⟨b, rfl⟩ : ∃ b : Fin 4194304, i = ix1 b := ⟨i 0, eq_ix1 i⟩
  rw [uncol_at]
  unfold forceCol forces
  rw [dArr_at, pArr_eq]

/-! ## The run, read -/

/-- Every weakly fair execution of the program terminates with the two results at the energies and the forces of
    the arguments, and the arguments unchanged. -/
theorem run : θ_run defs (onTc (τ := τ) (main (F := Ideal))) ⟨m, fun _ => 0, ρ⟩ fun r => ∀ c : Dev nD,
      r.2.mem ((c.tc : Thread nD τ).loc main_v2) = energies (m ((c.tc : Thread nD τ).loc main_arg0)) (m ((c.tc : Thread nD τ).loc main_arg1))
      ∧ r.2.mem ((c.tc : Thread nD τ).loc main_v3) = forces (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 (Pipeline.mem_restRefs_of main_v2 (by decide) (by decide))).trans (resE m c),
      ((h c).2 main_v3 (Pipeline.mem_restRefs_of main_v3 (by decide) (by decide))).trans (resF m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.KernelValue

end
-- ==== Proof.lean ====
/-
  Two programs compute, for four million samples, a pair potential's energy and force from a distance and 21
  parameters per sample (three Lennard-Jones terms, four Gaussian terms: Proof/Spec.lean has the formulas).

  The kernel walks the samples in 1024 blocks of 4096 rows and accumulates the seven terms of each row left to
  right, subtracting the force terms; the reference slices the parameters into a `[B, 3, 3]` and a `[B, 4, 3]` array,
  computes the terms with the force's sign inside, and sums each family before adding the two sums. On the extended
  reals both are the same function of the arguments, sample by sample:
  * Proof/Spec.lean states that function (`energies`, `forces`) and proves the two arrangements equal — addition is a
    commutative monoid, `x − y = x + −y`, `−x · y = −(x · y)`, the literal `−4.0` is `−(4.0)`, and the Gaussian
    force term's double quotient by `s²` commutes with negation (its only exception, `0 / 0`, cannot occur for a numerator
    that is itself a quotient by `s²`);
  * Proof/KernelBody.lean and Proof/KernelValue.lean read the kernel's result arrays off its run: row by row of a
    block, block by block of the column, through the reshapes before and after the region;
  * Proof/RefLayout.lean and Proof/RefValue.lean read the reference's results off its run: each sliced and reshaped
    array at `(b, j)` is a named entry of the arguments, each term array is the scalar term, the results their sums.
  No precondition is used: the agreement holds at every extended real, infinities included.
-/
import proofs.«154611_j1288490189271_1_alg».proof.Defs
import proofs.«154611_j1288490189271_1_alg».proof.Proof.Gen.Kernel
import proofs.«154611_j1288490189271_1_alg».proof.Proof.Gen.Kernel.Skeleton
import proofs.«154611_j1288490189271_1_alg».proof.Proof.Gen.Kernel.Launch
import proofs.«154611_j1288490189271_1_alg».proof.Proof.Gen.Kernel.Points
import proofs.«154611_j1288490189271_1_alg».proof.Proof.Gen.Kernel.Frame
import proofs.«154611_j1288490189271_1_alg».proof.Proof.Gen.KernelIdeal
import proofs.«154611_j1288490189271_1_alg».proof.Proof.Gen.KernelIdeal.Skeleton
import proofs.«154611_j1288490189271_1_alg».proof.Proof.Gen.KernelIdeal.Launch
import proofs.«154611_j1288490189271_1_alg».proof.Proof.Gen.KernelIdeal.Points
import proofs.«154611_j1288490189271_1_alg».proof.Proof.Gen.KernelIdeal.Frame
import proofs.«154611_j1288490189271_1_alg».proof.Proof.Gen.ReferenceIdeal
import proofs.«154611_j1288490189271_1_alg».proof.Proof.Gen.ReferenceIdeal.Run
import proofs.«154611_j1288490189271_1_alg».proof.Proof.Gen.ReferenceIdeal.Read
import proofs.«154611_j1288490189271_1_alg».proof.Proof.Gen.Pre_finite_inputs
import Idealize.ShloMosaic.Adequacy
import Idealize.ShloMosaic.Init

import proofs.«154611_j1288490189271_1_alg».proof.Proof.Spec
import proofs.«154611_j1288490189271_1_alg».proof.Proof.RefValue
import proofs.«154611_j1288490189271_1_alg».proof.Proof.KernelValue

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and keeps its arguments: its run, the results dropped. -/
theorem frame_referenceIdeal : Cert.frame_ReferenceIdeal := fun m ρ _ =>
  (θ_run Cert.ReferenceIdeal.defs _ _).mono (fun _ h c => ⟨(h c).2.2.1, (h c).2.2.2⟩)
    (Cert.ReferenceIdeal.Value.run (F := Ideal) m ρ)

/-- Both programs end with the energies and the forces of their (agreeing) arguments. -/
theorem algebraic : Cert.algebraic_KernelIdeal_ReferenceIdeal := by
  intro m ρ m' ρ' _ hagree
  refine ⟨fun c => Cert.Spec.energies (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => Cert.Spec.forces (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelValue.run m ρ, ?_⟩
  refine (θ_run Cert.ReferenceIdeal.defs _ _).mono
    (fun _ h c => ⟨(h c).1.trans ?_, (h c).2.1.trans ?_, (h c).2.2.1, (h c).2.2.2⟩)
    (Cert.ReferenceIdeal.Value.run (F := Ideal) m' ρ')
  · rw [Cert.ReferenceIdeal.Read.val_main_v74_eq, (hagree c).1, (hagree c).2]
    exact Cert.RefValue.energies_eq _ _
  · rw [Cert.ReferenceIdeal.Read.val_main_v77_eq, (hagree c).1, (hagree c).2]
    exact Cert.RefValue.forces_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
